-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x256 : Shape := ⟨3, ![16, 8192, 256]⟩
abbrev S16x8192 : Shape := ⟨2, ![16, 8192]⟩
abbrev S_ : Shape := ⟨0, ![]⟩

class Facts : Prop where
  bcast_S_S16x8192x256 : S_.BroadcastsInDim S16x8192x256 (![] : Fin 0 → Fin S16x8192x256.rank)
  reducesTo_S16x8192x256_S_d0_1_2 : S16x8192x256.ReducesTo [0, 1, 2] S_
  h_S_ : 0 < S_.numel
  bcast_S_S16x8192 : S_.BroadcastsInDim S16x8192 (![] : Fin 0 → Fin S16x8192.rank)
  reducesTo_S16x8192_S_d0_1 : S16x8192.ReducesTo [0, 1] S_

variable [Facts]

def fn {F : FTy → Type} [FloatOps F] (main_arg0 : FVec F S16x8192x256 .f32) (main_arg1 : IVec S16x8192 32) : IVec S_ 1 :=
  let main_v0 : FVec F S16x8192x256 .f32 := Host.absf main_arg0
  let main_cst : FVec F S_ .f32 := constant S_ .f32 0x7F800000#32
  let main_v1 : FVec F S16x8192x256 .f32 := broadcastInDim S16x8192x256 ![] bcast_S_S16x8192x256 main_cst
  let main_v2 : IVec S16x8192x256 1 := cmpf .olt main_v0 main_v1
  let main_c : IVec S_ 1 := constantI S_ 1 1#1
  let main_v3 : IVec S_ 1 := (fun x v => Host.reduce IntOp.andi x v reducesTo_S16x8192x256_S_d0_1_2 h_S_) main_v2 main_c
  let main_c_0 : IVec S_ 32 := constantI S_ 32 0#32
  let main_v4 : IVec S16x8192 32 := broadcastInDim S16x8192 ![] bcast_S_S16x8192 main_c_0
  let main_v5 : IVec S16x8192 1 := cmpi .sge main_arg1 main_v4
  let main_c_1 : IVec S_ 1 := constantI S_ 1 1#1
  let main_v6 : IVec S_ 1 := (fun x v => Host.reduce IntOp.andi x v reducesTo_S16x8192_S_d0_1 h_S_) main_v5 main_c_1
  let main_v7 : IVec S_ 1 := andi main_v3 main_v6
  main_v7
-- ==== Kernel.lean ====
abbrev S16x8192x256 : Shape := ⟨3, ![16, 8192, 256]⟩
abbrev S16x8192 : Shape := ⟨2, ![16, 8192]⟩
abbrev S8x128 : Shape := ⟨2, ![8, 128]⟩
abbrev S_ : Shape := ⟨0, ![]⟩
abbrev S131072 : Shape := ⟨1, ![131072]⟩
abbrev S1024x128 : Shape := ⟨2, ![1024, 128]⟩
abbrev S1x128 : Shape := ⟨2, ![1, 128]⟩
abbrev S1024x128x1 : Shape := ⟨3, ![1024, 128, 1]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 17
  | .vmem => 4
  | .smem => 0
  | _ => 0

abbrev bufTy : (tb : Table) → Fin (tcTables nBuf tb) → BufTy
  | .hbm, ⟨0, _⟩ => ⟨S16x8192x256, .f32⟩
  | .hbm, ⟨1, _⟩ => ⟨S16x8192, .i32⟩
  | .hbm, ⟨2, _⟩ => ⟨S8x128, .f32⟩
  | .hbm, ⟨3, _⟩ => ⟨S8x128, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S16x8192, .i32⟩
  | .hbm, ⟨8, _⟩ => ⟨S16x8192, .i32⟩
  | .hbm, ⟨9, _⟩ => ⟨S_, .i32⟩
  | .hbm, ⟨10, _⟩ => ⟨S16x8192, .i32⟩
  | .hbm, ⟨11, _⟩ => ⟨S16x8192, .i32⟩
  | .hbm, ⟨12, _⟩ => ⟨S131072, .i32⟩
  | .hbm, ⟨13, _⟩ => ⟨S1024x128, .i32⟩
  | .hbm, ⟨14, _⟩ => ⟨S8x128, .f32⟩
  | .hbm, ⟨15, _⟩ => ⟨S1x1, .f32⟩
  | .hbm, ⟨16, _⟩ => ⟨S_, .f32⟩
  | .local _ .vmem, ⟨0, _⟩ => ⟨S8x128, .f32⟩
  | .local _ .vmem, ⟨1, _⟩ => ⟨S8x128, .f32⟩
  | .local _ .vmem, ⟨2, _⟩ => ⟨S1024x128, .i32⟩
  | .local _ .vmem, ⟨3, _⟩ => ⟨S8x128, .f32⟩
  | _, _ => ⟨S16x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_c : Ref sig .tc := ⟨.hbm, 4, rfl⟩
abbrev main_c_1 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S16x8192 : S_.BroadcastsInDim S16x8192 (![] : Fin 0 → Fin S16x8192.rank)
  shapeCasts_S16x8192_S131072 : S16x8192.ShapeCasts S131072
  shapeCasts_S131072_S1024x128 : S131072.ShapeCasts S1024x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S8x128_S1x128_0_0 : ∀ a, (![0, 0] : Fin 2 → Nat) a + S1x128.size a ≤ S8x128.size a
  h_S1x128 : 0 < S1x128.numel
  shapeCasts_S1x128_S1x128 : S1x128.ShapeCasts S1x128
  broadcasts_S1x128_S1024x128 : S1x128.Broadcasts S1024x128
  shapeCasts_S1024x128_S1024x128x1 : S1024x128.ShapeCasts S1024x128x1
  shapeCasts_S1024x128x1_S1024x128 : S1024x128x1.ShapeCasts S1024x128
  reduces_S1024x128_S1024 : S1024x128.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S8x128_S1x1_0_0 : S8x128.Slices ![0, 0] S1x1
  shapeCasts_S1x1_S_ : S1x1.ShapeCasts S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S8x128.size a
  hwx0_0 : ∀ i : grid0.Coords, EltTy.bits .f32 = 32 ∨ (Rect.block (s := S8x128) S8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x128.size a
  hwx0_1 : ∀ i : grid0.Coords, EltTy.bits .f32 = 32 ∨ (Rect.block (s := S8x128) S8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .i32 = 32 ∨ (Rect.block (s := S1024x128) S1024x128.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)

variable [Facts₀]

abbrev win0_0 : Pipeline.Window sig grid0 :=
  Pipeline.Window.ofSpec (Memref.whole main_cst) S8x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_cst_0) S8x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x8192x256 : Shape := ⟨3, ![16, 8192, 256]⟩
abbrev S16x8192 : Shape := ⟨2, ![16, 8192]⟩
abbrev S64 : Shape := ⟨1, ![64]⟩
abbrev S_ : Shape := ⟨0, ![]⟩
abbrev S16x8192x1 : Shape := ⟨3, ![16, 8192, 1]⟩

abbrev nBuf : Space → Nat
  | .hbm => 45
  | .vmem => 0
  | .smem => 0
  | _ => 0

abbrev bufTy : (tb : Table) → Fin (tcTables nBuf tb) → BufTy
  | .hbm, ⟨0, _⟩ => ⟨S16x8192x256, .f32⟩
  | .hbm, ⟨1, _⟩ => ⟨S16x8192, .i32⟩
  | .hbm, ⟨2, _⟩ => ⟨S64, .f32⟩
  | .hbm, ⟨3, _⟩ => ⟨S64, .i32⟩
  | .hbm, ⟨4, _⟩ => ⟨S_, .i32⟩
  | .hbm, ⟨5, _⟩ => ⟨S16x8192, .i32⟩
  | .hbm, ⟨6, _⟩ => ⟨S16x8192, .i1⟩
  | .hbm, ⟨7, _⟩ => ⟨S_, .i32⟩
  | .hbm, ⟨8, _⟩ => ⟨S_, .i32⟩
  | .hbm, ⟨9, _⟩ => ⟨S16x8192, .i32⟩
  | .hbm, ⟨10, _⟩ => ⟨S16x8192, .i32⟩
  | .hbm, ⟨11, _⟩ => ⟨S_, .i32⟩
  | .hbm, ⟨12, _⟩ => ⟨S16x8192, .i32⟩
  | .hbm, ⟨13, _⟩ => ⟨S16x8192, .i1⟩
  | .hbm, ⟨14, _⟩ => ⟨S_, .i32⟩
  | .hbm, ⟨15, _⟩ => ⟨S16x8192, .i32⟩
  | .hbm, ⟨16, _⟩ => ⟨S16x8192, .i32⟩
  | .hbm, ⟨17, _⟩ => ⟨S16x8192, .i32⟩
  | .hbm, ⟨18, _⟩ => ⟨S16x8192x1, .i32⟩
  | .hbm, ⟨19, _⟩ => ⟨S16x8192, .f32⟩
  | .hbm, ⟨20, _⟩ => ⟨S_, .f32⟩
  | .hbm, ⟨21, _⟩ => ⟨S_, .f32⟩
  | .hbm, ⟨22, _⟩ => ⟨S16x8192, .f32⟩
  | .hbm, ⟨23, _⟩ => ⟨S16x8192, .f32⟩
  | .hbm, ⟨24, _⟩ => ⟨S_, .i32⟩
  | .hbm, ⟨25, _⟩ => ⟨S16x8192, .i32⟩
  | .hbm, ⟨26, _⟩ => ⟨S16x8192, .i1⟩
  | .hbm, ⟨27, _⟩ => ⟨S_, .i32⟩
  | .hbm, ⟨28, _⟩ => ⟨S16x8192, .i32⟩
  | .hbm, ⟨29, _⟩ => ⟨S16x8192, .i32⟩
  | .hbm, ⟨30, _⟩ => ⟨S16x8192, .i32⟩
  | .hbm, ⟨31, _⟩ => ⟨S16x8192x1, .i32⟩
  | .hbm, ⟨32, _⟩ => ⟨S16x8192, .i32⟩
  | .hbm, ⟨33, _⟩ => ⟨S_, .i32⟩
  | .hbm, ⟨34, _⟩ => ⟨S_, .i32⟩
  | .hbm, ⟨35, _⟩ => ⟨S16x8192, .i32⟩
  | .hbm, ⟨36, _⟩ => ⟨S16x8192, .i32⟩
  | .hbm, ⟨37, _⟩ => ⟨S_, .f32⟩
  | .hbm, ⟨38, _⟩ => ⟨S_, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .f32⟩
  | .hbm, ⟨44, _⟩ => ⟨S_, .f32⟩
  | _, _ => ⟨S16x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_c_2 : Ref sig .tc := ⟨.hbm, 11, rfl⟩
abbrev main_v3 : Ref sig .tc := ⟨.hbm, 12, rfl⟩
abbrev main_v4 : Ref sig .tc := ⟨.hbm, 13, rfl⟩
abbrev main_c_3 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_4 : Ref sig .tc := ⟨.hbm, 20, rfl⟩
abbrev main_call1_v0 : Ref sig .tc := ⟨.hbm, 21, rfl⟩
abbrev main_call1_v1 : Ref sig .tc := ⟨.hbm, 22, rfl⟩
abbrev main_v10 : Ref sig .tc := ⟨.hbm, 23, rfl⟩
abbrev main_c_5 : Ref sig .tc := ⟨.hbm, 24, rfl⟩
abbrev main_v11 : Ref sig .tc := ⟨.hbm, 25, rfl⟩
abbrev main_v12 : Ref sig .tc := ⟨.hbm, 26, rfl⟩
abbrev main_c_6 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_7 : Ref sig .tc := ⟨.hbm, 33, rfl⟩
abbrev main_call2_v0 : Ref sig .tc := ⟨.hbm, 34, rfl⟩
abbrev main_call2_v1 : Ref sig .tc := ⟨.hbm, 35, rfl⟩
abbrev main_v18 : Ref sig .tc := ⟨.hbm, 36, rfl⟩
abbrev main_cst_8 : Ref sig .tc := ⟨.hbm, 37, rfl⟩
abbrev main_v19 : Ref sig .tc := ⟨.hbm, 38, rfl⟩
abbrev main_c_9 : Ref sig .tc := ⟨.hbm, 39, rfl⟩
abbrev main_v20 : Ref sig .tc := ⟨.hbm, 40, rfl⟩
abbrev main_c_10 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]

class Facts₀ : Prop where
  bcast_S_S16x8192 : S_.BroadcastsInDim S16x8192 (![] : Fin 0 → Fin S16x8192.rank)
  bcast_S16x8192_S16x8192x1_0_1 : S16x8192.BroadcastsInDim S16x8192x1 (![0, 1] : Fin 2 → Fin S16x8192x1.rank)
  reducesTo_S16x8192_S_d0_1 : S16x8192.ReducesTo [0, 1] S_
  h_S_ : 0 < S_.numel
  gather_S64_S16x8192x1_S16x8192_n_0_n_n_0_2_1_wf : GatherDims.WF S64 S16x8192x1 S16x8192 [] [0] [] [0] [] 2 ![1]

variable [Facts₀]

def gather_S64_S16x8192x1_S16x8192_n_0_n_n_0_2_1 : GatherDims S64 S16x8192x1 S16x8192 where
  offsetDims := []
  collapsedSliceDims := [0]
  operandBatchingDims := []
  startIndicesBatchingDims := []
  startIndexMap := [0]
  indexVectorDim := 2
  sliceSizes := ![1]
  wf := gather_S64_S16x8192x1_S16x8192_n_0_n_n_0_2_1_wf

class Facts : Prop extends Facts₀ where

variable [Facts]
-- ==== Proof.KValue.lean ====
/-
  What the kernel's program leaves in its result, as ONE pure function of the index array.

  The program clamps every index into [0, 127], lays the 16 x 8192 indices out as 1024 rows of 128 lanes, and
  launches the kernel once, on the whole arrays: two 8 x 128 table blocks (only row 0 is read) and the index block.
  The kernel body's single store writes one value, repeated over an 8 x 128 block; the program returns entry (0, 0).
  So the region's one grid point flushes a block that is the whole output array, each input block is its whole
  array, and the result is the body's arithmetic applied to the clamped indices and the two table blocks.
-/
import proofs.«428653_j70497593196920_3_alg».proof.Proof.Gen.KernelIdeal.Frame
import Idealize.ShloMosaic.Lib.Pipeline.Value
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]

/-- The squared-error table block as the program's constant holds it. -/
def lossBlk : Vec F S8x128 .f32 := fun i => FloatOps.ofBits .f32 (lit0 (S8x128.rowMajor i))
/-- The neighbour-count table block as the program's constant holds it. -/
def cntBlk : Vec F S8x128 .f32 := fun i => FloatOps.ofBits .f32 (lit1 (S8x128.rowMajor i))

/-- The index block the kernel reads: every index clamped into [0, 127], 1024 rows of 128 lanes in row-major order. -/
def laneIdx (x : IVec S16x8192 32) : IVec S1024x128 32 :=
  shapeCast S1024x128 (shapeCast S131072
    (minsi (broadcastInDim S16x8192 ![] bcast_S_S16x8192 (constantI S_ 32 127#32))
      (maxsi (broadcastInDim S16x8192 ![] bcast_S_S16x8192 (constantI S_ 32 0#32)) x))
    shapeCasts_S16x8192_S131072) shapeCasts_S131072_S1024x128

/-- The output array: the body's arithmetic on the index block and row 0 of each table block. -/
def kernArr (x : IVec S16x8192 32) : Vec F S8x128 .f32 :=
  k0_pay1 (F := F) (laneIdx x) (View.ld (lossBlk (F := F)) r0_1) (View.ld (cntBlk (F := F)) r0_1)

/-- The program's result: entry (0, 0) of the output array, as a rank-0 array. -/
def kernOut (x : IVec S16x8192 32) : FVec F S_ .f32 :=
  shapeCast S_ (extractStridedSlice S1x1 ![0, 0] (kernArr (F := F) x) slices_S8x128_S1x1_0_0) shapeCasts_S1x1_S_

variable (m : (ℓ : Loc nD τ sig) → Buf (Elt F) ℓ) (ρ : Dev nD → PrngReg)

/-- When the region is entered the first table array holds the squared-error constant. -/
theorem V_cst (c : Dev nD) : (V m c main_cst : S8x128.Idx → F .f32) = lossBlk := by
  dsimp only [V, V0]
  simp only [hostOps0, hostOps0_1, hostOps0_2, List.flatten_cons, List.flatten_nil, List.append_nil, List.cons_append, List.nil_append]
  after_results
  rfl

/-- ... the second table array the neighbour-count constant, -/
theorem V_cst_0 (c : Dev nD) : (V m c main_cst_0 : S8x128.Idx → F .f32) = cntBlk := by
  dsimp only [V, V0]
  simp only [hostOps0, hostOps0_1, hostOps0_2, List.flatten_cons, List.flatten_nil, List.append_nil, List.cons_append, List.nil_append]
  after_results
  rfl

/-- ... and the index array the clamped, re-laid indices. -/
theorem V_v2 (c : Dev nD) : (V m c main_v2 : S1024x128.Idx → BitVec 32) = laneIdx (m ((c.tc : Thread nD τ).loc main_arg1)) := by
  dsimp only [V, V0]
  simp only [hostOps0, hostOps0_1, hostOps0_2, List.flatten_cons, List.flatten_nil, List.append_nil, List.cons_append, List.nil_append]
  after_results
  rfl

theorem hz : (![0, 0] : Fin 2 → Nat) = fun _ => 0 := funext fun a => by fin_cases a <;> rfl

/-- Every window's block index is (0, 0) at the grid's one point. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Each input window's block at the point is its whole array. -/
theorem iblk0 (c : Dev nD) (t : Fin cfg0.N) : (iblk m c 0 t : S8x128.Idx → F .f32) = lossBlk := by
  rw [← V_cst m c]
  obtain ⟨e0, e1, -⟩ := idx_facts t
  funext j
  show V m c main_cst (((cfg0.win 0).blk t).view.emb j) = V m c main_cst j
  congr 1
  funext a; apply Fin.ext
  match a with
  | ⟨0, _⟩ => show win0_0.index t (0 : Fin 2) * 8 + 1 * (j 0).val = (j 0).val; omega
  | ⟨1, _⟩ => show win0_0.index t (1 : Fin 2) * 128 + 1 * (j 1).val = (j 1).val; omega

theorem iblk1 (c : Dev nD) (t : Fin cfg0.N) : (iblk m c 1 t : S8x128.Idx → F .f32) = cntBlk := by
  rw [← V_cst_0 m c]
  obtain ⟨-, -, e0, e1, -⟩ := idx_facts t
  funext j
  show V m c main_cst_0 (((cfg0.win 1).blk t).view.emb j) = V m c main_cst_0 j
  congr 1
  funext a; apply Fin.ext
  match a with
  | ⟨0, _⟩ => show win0_1.index t (0 : Fin 2) * 8 + 1 * (j 0).val = (j 0).val; omega
  | ⟨1, _⟩ => show win0_1.index t (1 : Fin 2) * 128 + 1 * (j 1).val = (j 1).val; omega

theorem iblk2 (c : Dev nD) (t : Fin cfg0.N) : (iblk m c 2 t : S1024x128.Idx → BitVec 32) = laneIdx (m ((c.tc : Thread nD τ).loc main_arg1)) := by
  rw [← V_v2 m c]
  obtain ⟨-, -, -, -, e0, e1, -⟩ := idx_facts t
  funext j
  show V m c main_v2 (((cfg0.win 2).blk t).view.emb j) = V m c main_v2 j
  congr 1
  funext a; apply Fin.ext
  match a with
  | ⟨0, _⟩ => show win0_2.index t (0 : Fin 2) * 1024 + 1 * (j 0).val = (j 0).val; omega
  | ⟨1, _⟩ => show win0_2.index t (1 : Fin 2) * 128 + 1 * (j 1).val = (j 1).val; omega

/-- What the point writes back is the block of `kernArr` it covers. -/
theorem flushed_eq (c : Dev nD) (t : Fin cfg0.N) :
    (dats m 0 c).flushed 3 t = ((cfg0.win 3).blk t).view.read (Elt F) (kernArr (F := F) (m ((c.tc : Thread nD τ).loc main_arg1))) := by
  show (cfg0.win 3).cut (grid0.coords t) ((dats m 0 c).after 3 t) = _
  rw [after0_3]
  unfold out0_3
  rw [View.canon_unit_zero hz]
  rw [iblk0 m c t, iblk1 m c t, iblk2 m c t, View.ld_unit_zero (S := S1024x128) hz]
  obtain ⟨-, -, -, -, -, -, e0, e1⟩ := idx_facts t
  funext j
  show kernArr (F := F) (m ((c.tc : Thread nD τ).loc main_arg1)) j
    = kernArr (F := F) (m ((c.tc : Thread nD τ).loc main_arg1)) (((cfg0.win 3).blk t).view.emb j)
  congr 1
  funext a; apply Fin.ext
  match a with
  | ⟨0, _⟩ => show (j 0).val = win0_3.index t (0 : Fin 2) * 8 + 1 * (j 0).val; omega
  | ⟨1, _⟩ => show (j 1).val = win0_3.index t (1 : Fin 2) * 128 + 1 * (j 1).val; omega

/-- An index is in the point's output block iff each coordinate is in the block's range. -/
theorem mem_blk (t : Fin cfg0.N) (i : S8x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v3).slice (win0_3.rect t)).set ↔ _
  rw [View.set_slice_whole, Rect.mem_set_unit]
  exact Iff.rfl

/-- The one block covers the whole output array. -/
theorem cover (i : S8x128.Idx) : ∃ t : Fin cfg0.N, (cfg0.win 3).flush t = true ∧ i ∈ ((cfg0.win 3).blk t).view.set := by
  refine ⟨t0_0, flush0_3 t0_0, ?_⟩
  rw [mem_blk]
  obtain ⟨-, -, -, -, -, -, e0, e1⟩ := idx_facts t0_0
  intro a
  match a with
  | ⟨0, _⟩ => show win0_3.index t0_0 (0 : Fin 2) * 8 ≤ (i 0).val ∧ (i 0).val < win0_3.index t0_0 (0 : Fin 2) * 8 + 8; have hi : (i 0).val < 8 := (i 0).isLt; omega
  | ⟨1, _⟩ => show win0_3.index t0_0 (1 : Fin 2) * 128 ≤ (i 1).val ∧ (i 1).val < win0_3.index t0_0 (1 : Fin 2) * 128 + 128; have hi : (i 1).val < 128 := (i 1).isLt; omega

/-- So the output array ends holding `kernArr`. -/
theorem final (c : Dev nD) : (dats m 0 c).arrAt 3 cfg0.N = kernArr (F := F) (m ((c.tc : Thread nD τ).loc main_arg1)) :=
  (dats m 0 c).arrAt_eq_of_cover 3 (kernArr (F := F) (m ((c.tc : Thread nD τ).loc main_arg1))) (fun t _ => flushed_eq m c t) cover

/-- The two operations after the region (a slice at (0, 0) and a reshape to rank 0) read that array. -/
theorem tail_v5 (c : Dev nD) :
    Pipeline.afterTail₀ cfgs (dats m) 0 (V0 m) [hostOps1] c main_v5 = kernOut (F := F) (m ((c.tc : Thread nD τ).loc main_arg1)) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v3)
      = kernArr (F := F) (m ((c.tc : Thread nD τ).loc main_arg1)) :=
    (Pipeline.withArrays_arr spec0 launch0.win.arr_inj c _ _ 3).trans (final m c)
  rw [hw]
  rfl

/-- Every weakly fair execution of the program ends with the result at `kernOut` of the index argument, the
    arguments unchanged. -/
theorem run : θ_run defs (onTc (τ := τ) (main (F := F))) ⟨m, fun _ => 0, ρ⟩ fun r => ∀ c : Dev nD,
      r.2.mem ((c.tc : Thread nD τ).loc main_v5) = kernOut (F := F) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v5 (Pipeline.mem_restRefs_of main_v5 (by decide) (by decide))).trans (tail_v5 m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KValue

end
-- ==== Proof.RefTerm.lean ====
/-
  The reference program's result as ONE pure function of its index array.

  A token index `w` is *valid* when `w < 64` (signed). An invalid token contributes nothing. For a valid token the
  program reads two 64-entry tables (a squared-error sum per codon and a neighbour count per codon) at the index,
  after the usual normalisation of a negative index (`w + 64` when `w < 0`). The result is the sum of the table
  reads over all 16 x 8192 tokens divided by the larger of the summed counts (an integer sum, converted) and one.
-/
import proofs.«428653_j70497593196920_3_alg».proof.Proof.Gen.ReferenceIdeal

noncomputable section

namespace Cert.ReferenceIdeal.RefTerm

open Cert.ReferenceIdeal Cert.ReferenceIdeal.Gen Idealize.ShloMosaic Idealize.ShloMosaic.TcCoe

variable {F : FTy → Type} [FloatOps F]

/-- The per-codon squared-error sums, as the program's constant holds them. -/
def lossTbl : FVec F S64 .f32 := fun i => FloatOps.ofBits .f32 (lit0 (S64.rowMajor i))

/-- The per-codon neighbour counts, as the program's constant holds them. -/
def cntTbl : IVec S64 32 := fun i => lit1 (S64.rowMajor i)

/-- A 32-bit word repeated over the token grid. -/
def splat (w : BitVec 32) : IVec S16x8192 32 := broadcastInDim S16x8192 ![] bcast_S_S16x8192 (constantI S_ 32 w)

/-- Which tokens are valid: index below 64. -/
def valid (x : IVec S16x8192 32) : IVec S16x8192 1 := cmpi .slt x (splat 64#32)

/-- The index each token's table read uses: 0 for an invalid token, else the index itself, moved up by 64 when
    negative; with a trailing unit axis, as the gather takes it. -/
def readIdx (x : IVec S16x8192 32) : IVec S16x8192x1 32 :=
  broadcastInDim S16x8192x1 ![0, 1] bcast_S16x8192_S16x8192x1_0_1
    (select (cmpi .slt (select (valid x) x (splat 0#32)) (splat 0#32))
      (addi (select (valid x) x (splat 0#32)) (splat 64#32))
      (select (valid x) x (splat 0#32)))

/-- Each token's squared-error term: the table read where valid, zero elsewhere. -/
def lossTerms (x : IVec S16x8192 32) : FVec F S16x8192 .f32 :=
  select (valid x) (Host.gather gather_S64_S16x8192x1_S16x8192_n_0_n_n_0_2_1 (lossTbl (F := F)) (readIdx x))
    (broadcastInDim S16x8192 ![] bcast_S_S16x8192 (constant S_ .f32 0x00000000#32))

/-- Each token's neighbour count: the table read where valid, zero elsewhere. -/
def cntTerms (x : IVec S16x8192 32) : IVec S16x8192 32 :=
  select (valid x) (Host.gather gather_S64_S16x8192x1_S16x8192_n_0_n_n_0_2_1 cntTbl (readIdx x)) (splat 0#32)

/-- The result: summed squared-error terms over the larger of the summed counts and one. -/
def refOut (x : IVec S16x8192 32) : FVec F S_ .f32 :=
  Host.divf
    (Host.reduceAdd (lossTerms (F := F) x) (constant S_ .f32 0x00000000#32) reducesTo_S16x8192_S_d0_1 h_S_)
    (sitofp .f32 (maxsi (Host.reduce IntOp.addi (cntTerms x) (constantI S_ 32 0#32) reducesTo_S16x8192_S_d0_1 h_S_)
      (constantI S_ 32 1#32)))

end Cert.ReferenceIdeal.RefTerm

end
-- ==== Proof.RefRun.lean ====
/-
  The reference program's run, read back as one equation.

  The program is a straight line of 43 host operations: its own 34 and, at each of its three calls of a selection
  helper, the helper's three (the scalar fill value passed through, repeated over the token grid, then the
  elementwise choice between the table read and the fill). Every operation overwrites one buffer of its own with a
  function of buffers written earlier, so the contents at the end are the fold of the operations over the contents
  at launch; at the result buffer that fold is the composition `refOut` of the index array, and the two argument
  buffers are written by no operation.
-/
import proofs.«428653_j70497593196920_3_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 43 operations in order, each call replaced by the three operations of the helper it calls, over
    that call's own buffers. -/
abbrev ops : List (HloOp τ sig (Elt F)) :=
  [ nullary main_cst (fun i => FloatOps.ofBits .f32 (lit0 (S64.rowMajor i))),
    nullary main_c (fun i => lit1 (S64.rowMajor i)),
    nullary main_c_0 (constantI S_ 32 64#32),
    unary main_c_0 main_v0 (broadcastInDim S16x8192 ![] bcast_S_S16x8192 : (⟨S_, .i32⟩ : BufTy).Contents (Elt F) → (⟨S16x8192, .i32⟩ : BufTy).Contents (Elt F)),
    binary main_arg1 main_v0 main_v1 (cmpi .slt : (⟨S16x8192, .i32⟩ : BufTy).Contents (Elt F) → (⟨S16x8192, .i32⟩ : BufTy).Contents (Elt F) → (⟨S16x8192, .i1⟩ : BufTy).Contents (Elt F)),
    nullary main_c_1 (constantI S_ 32 0#32),
    TRef.unary (.of main_c_1) main_call0.v0 id,
    TRef.unary main_call0.v0 main_call0.v1 (broadcastInDim S16x8192 ![] bcast_S_S16x8192),
    TRef.ternary (.of main_v1) (.of main_arg1) main_call0.v1 main_call0.v2 select,
    nullary main_c_2 (constantI S_ 32 0#32),
    unary main_c_2 main_v3 (broadcastInDim S16x8192 ![] bcast_S_S16x8192 : (⟨S_, .i32⟩ : BufTy).Contents (Elt F) → (⟨S16x8192, .i32⟩ : BufTy).Contents (Elt F)),
    binary main_v2 main_v3 main_v4 (cmpi .slt : (⟨S16x8192, .i32⟩ : BufTy).Contents (Elt F) → (⟨S16x8192, .i32⟩ : BufTy).Contents (Elt F) → (⟨S16x8192, .i1⟩ : BufTy).Contents (Elt F)),
    nullary main_c_3 (constantI S_ 32 64#32),
    unary main_c_3 main_v5 (broadcastInDim S16x8192 ![] bcast_S_S16x8192 : (⟨S_, .i32⟩ : BufTy).Contents (Elt F) → (⟨S16x8192, .i32⟩ : BufTy).Contents (Elt F)),
    binary main_v2 main_v5 main_v6 (addi : (⟨S16x8192, .i32⟩ : BufTy).Contents (Elt F) → (⟨S16x8192, .i32⟩ : BufTy).Contents (Elt F) → (⟨S16x8192, .i32⟩ : BufTy).Contents (Elt F)),
    ternary main_v4 main_v6 main_v2 main_v7 (select : (⟨S16x8192, .i1⟩ : BufTy).Contents (Elt F) → (⟨S16x8192, .i32⟩ : BufTy).Contents (Elt F) → (⟨S16x8192, .i32⟩ : BufTy).Contents (Elt F) → (⟨S16x8192, .i32⟩ : BufTy).Contents (Elt F)),
    unary main_v7 main_v8 (broadcastInDim S16x8192x1 ![0, 1] bcast_S16x8192_S16x8192x1_0_1 : (⟨S16x8192, .i32⟩ : BufTy).Contents (Elt F) → (⟨S16x8192x1, .i32⟩ : BufTy).Contents (Elt F)),
    binary main_cst main_v8 main_v9 ((fun x i => Host.gather gather_S64_S16x8192x1_S16x8192_n_0_n_n_0_2_1 x i) : (⟨S64, .f32⟩ : BufTy).Contents (Elt F) → (⟨S16x8192x1, .i32⟩ : BufTy).Contents (Elt F) → (⟨S16x8192, .f32⟩ : BufTy).Contents (Elt F)),
    nullary main_cst_4 (constant S_ .f32 0x00000000#32),
    TRef.unary (.of main_cst_4) main_call1.v0 id,
    TRef.unary main_call1.v0 main_call1.v1 (broadcastInDim S16x8192 ![] bcast_S_S16x8192),
    TRef.ternary (.of main_v1) (.of main_v9) main_call1.v1 main_call1.v2 select,
    nullary main_c_5 (constantI S_ 32 0#32),
    unary main_c_5 main_v11 (broadcastInDim S16x8192 ![] bcast_S_S16x8192 : (⟨S_, .i32⟩ : BufTy).Contents (Elt F) → (⟨S16x8192, .i32⟩ : BufTy).Contents (Elt F)),
    binary main_v2 main_v11 main_v12 (cmpi .slt : (⟨S16x8192, .i32⟩ : BufTy).Contents (Elt F) → (⟨S16x8192, .i32⟩ : BufTy).Contents (Elt F) → (⟨S16x8192, .i1⟩ : BufTy).Contents (Elt F)),
    nullary main_c_6 (constantI S_ 32 64#32),
    unary main_c_6 main_v13 (broadcastInDim S16x8192 ![] bcast_S_S16x8192 : (⟨S_, .i32⟩ : BufTy).Contents (Elt F) → (⟨S16x8192, .i32⟩ : BufTy).Contents (Elt F)),
    binary main_v2 main_v13 main_v14 (addi : (⟨S16x8192, .i32⟩ : BufTy).Contents (Elt F) → (⟨S16x8192, .i32⟩ : BufTy).Contents (Elt F) → (⟨S16x8192, .i32⟩ : BufTy).Contents (Elt F)),
    ternary main_v12 main_v14 main_v2 main_v15 (select : (⟨S16x8192, .i1⟩ : BufTy).Contents (Elt F) → (⟨S16x8192, .i32⟩ : BufTy).Contents (Elt F) → (⟨S16x8192, .i32⟩ : BufTy).Contents (Elt F) → (⟨S16x8192, .i32⟩ : BufTy).Contents (Elt F)),
    unary main_v15 main_v16 (broadcastInDim S16x8192x1 ![0, 1] bcast_S16x8192_S16x8192x1_0_1 : (⟨S16x8192, .i32⟩ : BufTy).Contents (Elt F) → (⟨S16x8192x1, .i32⟩ : BufTy).Contents (Elt F)),
    binary main_c main_v16 main_v17 ((fun x i => Host.gather gather_S64_S16x8192x1_S16x8192_n_0_n_n_0_2_1 x i) : (⟨S64, .i32⟩ : BufTy).Contents (Elt F) → (⟨S16x8192x1, .i32⟩ : BufTy).Contents (Elt F) → (⟨S16x8192, .i32⟩ : BufTy).Contents (Elt F)),
    nullary main_c_7 (constantI S_ 32 0#32),
    TRef.unary (.of main_c_7) main_call2.v0 id,
    TRef.unary main_call2.v0 main_call2.v1 (broadcastInDim S16x8192 ![] bcast_S_S16x8192),
    TRef.ternary (.of main_v1) (.of main_v17) main_call2.v1 main_call2.v2 select,
    nullary main_cst_8 (constant S_ .f32 0x00000000#32),
    binary main_v10 main_cst_8 main_v19 ((fun x v => Host.reduceAdd x v reducesTo_S16x8192_S_d0_1 h_S_) : (⟨S16x8192, .f32⟩ : BufTy).Contents (Elt F) → (⟨S_, .f32⟩ : BufTy).Contents (Elt F) → (⟨S_, .f32⟩ : BufTy).Contents (Elt F)),
    nullary main_c_9 (constantI S_ 32 0#32),
    binary main_v18 main_c_9 main_v20 ((fun x v => Host.reduce IntOp.addi x v reducesTo_S16x8192_S_d0_1 h_S_) : (⟨S16x8192, .i32⟩ : BufTy).Contents (Elt F) → (⟨S_, .i32⟩ : BufTy).Contents (Elt F) → (⟨S_, .i32⟩ : BufTy).Contents (Elt F)),
    nullary main_c_10 (constantI S_ 32 1#32),
    binary main_v20 main_c_10 main_v21 (maxsi : (⟨S_, .i32⟩ : BufTy).Contents (Elt F) → (⟨S_, .i32⟩ : BufTy).Contents (Elt F) → (⟨S_, .i32⟩ : BufTy).Contents (Elt F)),
    unary main_v21 main_v22 (sitofp .f32 : (⟨S_, .i32⟩ : BufTy).Contents (Elt F) → (⟨S_, .f32⟩ : BufTy).Contents (Elt F)),
    binary main_v19 main_v22 main_v23 (Host.divf : (⟨S_, .f32⟩ : BufTy).Contents (Elt F) → (⟨S_, .f32⟩ : BufTy).Contents (Elt F) → (⟨S_, .f32⟩ : BufTy).Contents (Elt F)) ]

-- forty-three sequenced steps re-associated: the rewriting under the chain recurses once per step
set_option maxRecDepth 1024 in
/-- The program is that straight line: with the helpers' definitions opened at their calls, both sides are one
    chain of the same steps once the sequencing is re-associated. -/
theorem main_eq (c : Dev nD) : main (F := F) c = seq ops := by
  simp only [main, fn_where.body, fn_where_0.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches only buffers of the device. -/
theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    binary_bufs_sub .., nullary_bufs_sub .., binary_bufs_sub .., nullary_bufs_sub .., binary_bufs_sub .., unary_bufs_sub ..,
    binary_bufs_sub ..⟩

attribute [local irreducible] Host.reduce Host.reduceAdd Host.gather in
/-- The fold of the operations at the result buffer is `refOut` of the contents of the index array: each
    operation's result at its own buffer is its function of the buffers it reads, at any other buffer what was
    there; what is left is the same composition written twice. The two sums and the table reads stay closed
    throughout: the equation never looks inside them. -/
theorem out_eq (V : Valuation τ sig (Elt F)) :
    after ops V (main_v23 : DevRef τ sig) = RefTerm.refOut (F := F) (V (main_arg1 : DevRef τ sig)) := by
  after_results_simp
  simp only [RefTerm.refOut, RefTerm.lossTerms, RefTerm.cntTerms, RefTerm.readIdx, RefTerm.valid, RefTerm.splat,
    RefTerm.lossTbl, RefTerm.cntTbl]
  rfl

/-- No operation writes the first argument. -/
theorem arg0_eq (V : Valuation τ sig (Elt F)) :
    after ops V (main_arg0 : DevRef τ sig) = V (main_arg0 : DevRef τ sig) := by
  after_results_simp

/-- No operation writes the index array. -/
theorem arg1_eq (V : Valuation τ sig (Elt F)) :
    after ops V (main_arg1 : DevRef τ sig) = V (main_arg1 : DevRef τ sig) := by
  after_results_simp

/-- On every device, for any float values, from any memory with zero counters: every weakly fair execution of the
    program terminates with the result buffer at `refOut` of the index array's launch contents, and both
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = Cert.ReferenceIdeal.RefTerm.refOut (F := F) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v23).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.PreFacts.lean ====
/-
  What the printed precondition says of the index words: the precondition is the conjunction of two
  `all`s, each a reduction by `and` over every axis; the second runs over the signed comparison
  `x1 ≥ 0`, so when the precondition is 1 every index word, read signed, is non-negative.
-/
import proofs.«428653_j70497593196920_3_alg».proof.Pre_finite_inputs
import proofs.«428653_j70497593196920_3_alg».proof.Proof.Gen.Pre_finite_inputs
import Idealize.ShloMosaic.Lib.ReduceAll

namespace Cert.Pre_finite_inputs.PreFacts

open Cert.Pre_finite_inputs Cert.Pre_finite_inputs.Gen Idealize.ShloMosaic

/-- The rank-zero shape has one index. -/
instance : Subsingleton S_.Idx := ⟨fun a b => funext fun d => d.elim0⟩

/-- Under the precondition every index word is non-negative read signed: the second conjunct is the
    `and` over all positions of `x1 i ≥ 0`, and an `and`-reduction into a single result that is 1
    met a 1 at every position. -/
theorem nonneg_of_pre {F : FTy → Type} [FloatOps F] (x0 : FVec F S16x8192x256 .f32) (x1 : IVec S16x8192 32)
    (h : Cert.Pre_finite_inputs.fn (F := F) x0 x1 = fun _ => 1#1) : ∀ i : S16x8192.Idx, 0 ≤ (x1 i).toInt := by
  intro i
  have h0 := congrFun h (fun d => d.elim0)
  dsimp only [fn, andi] at h0
  obtain ⟨-, h2⟩ := IntOp.andi_eq_one.1 h0
  have hi := Host.reduce_andi_all _ _ _ _ _ h2 i
  -- the comparison at `i` is of `x1 i` against the broadcast zero
  have hc : IntOp.cmpi .sge (x1 i) 0#32 = 1#1 := hi
  have := IntOp.cmpi_sge.1 hc
  simpa using this

end Cert.Pre_finite_inputs.PreFacts
-- ==== Proof.Words.lean ====
/-
  The two programs, token by token, as functions of one 32-bit index word.

  The kernel's program clamps a word (signed) into the 128 lanes of its padded tables, and the kernel body reads lane
  `w mod 128` (after moving a negative word up by 128, which the clamp makes vacuous). Its two tables hold the
  per-codon squared-error sums and neighbour counts as floats in lanes 0..63 and zeros in lanes 64..127.

  The reference treats a word below 64 (signed) as valid, moves a negative valid word up by 64, reads its two
  64-entry tables there (the read clamps into 0..63), and takes zero for an invalid word; its counts are integers.
-/
import proofs.«428653_j70497593196920_3_alg».proof.KernelIdeal
import proofs.«428653_j70497593196920_3_alg».proof.ReferenceIdeal
import Idealize.ShloMosaic.PureOps.Ideal

noncomputable section

namespace Cert.Words

open Idealize.ShloMosaic

/-- The kernel program's clamp of an index word into `[0, 127]`, signed. -/
def clipW (w : BitVec 32) : BitVec 32 := IntOp.minsi 127#32 (IntOp.maxsi 0#32 w)

/-- The kernel body's normalisation of a lane word: up by 128 when negative. -/
def nrmW (w : BitVec 32) : BitVec 32 := Scalar.select (IntOp.cmpi .slt w 0#32) (IntOp.addi w 128#32) w

/-- The position in the kernel's 8 x 128 table block (row 0) that a lane word reads. -/
def laneOf (w : BitVec 32) : Fin 1024 := ⟨(nrmW w).toNat % 128, by omega⟩

/-- The kernel's squared-error term of a (clamped) lane word. -/
def kLossW (w : BitVec 32) : EReal := Ideal.ofBits .f32 (Cert.KernelIdeal.lit0 (laneOf w))

/-- The kernel's neighbour count of a (clamped) lane word, a float. -/
def kCntW (w : BitVec 32) : EReal := Ideal.ofBits .f32 (Cert.KernelIdeal.lit1 (laneOf w))

/-- The reference's validity bit of an index word: below 64, signed. -/
def validW (w : BitVec 32) : BitVec 1 := IntOp.cmpi .slt w 64#32

/-- The word the reference's table read uses: 0 for an invalid word, else the word, up by 64 when negative. -/
def rdW (w : BitVec 32) : BitVec 32 :=
  Scalar.select (IntOp.cmpi .slt (Scalar.select (validW w) w 0#32) 0#32)
    (IntOp.addi (Scalar.select (validW w) w 0#32) 64#32)
    (Scalar.select (validW w) w 0#32)

/-- The table entry that read lands on: the word read signed and clamped into `[0, 63]`. -/
def slotOf (w : BitVec 32) : Fin 64 := ⟨min (rdW w).toInt.toNat 63, by omega⟩

/-- The reference's squared-error term of an index word. -/
def refLossW (w : BitVec 32) : EReal :=
  Scalar.select (validW w) (Ideal.ofBits .f32 (Cert.ReferenceIdeal.lit0 (slotOf w))) (Ideal.ofBits .f32 0x00000000#32)

/-- The reference's neighbour count of an index word, an integer word. -/
def refCntW (w : BitVec 32) : BitVec 32 := Scalar.select (validW w) (Cert.ReferenceIdeal.lit1 (slotOf w)) 0#32

end Cert.Words

end
-- ==== Proof.KIdeal.lean ====
/-
  The kernel's result read at the ideal instance.

  The body gathers, for each of the 1024 x 128 tokens, the entry of a 128-lane table row that the token's lane word
  names (the word mod 128, after a negative word is moved up by 128), once for each of the two table rows; sums each
  gathered block over the lanes and then over the rows; and divides the first total by the larger of the second
  total and one. Over the extended reals every one of these sums is a plain finite sum, so the result is a quotient
  of two sums over the tokens; and since the two reshapes that lay the indices out as rows of lanes are re-indexings,
  the sums run over the 16 x 8192 tokens of the index array itself.
-/
import proofs.«428653_j70497593196920_3_alg».proof.Proof.KValue
import proofs.«428653_j70497593196920_3_alg».proof.Proof.Words
import Idealize.ShloMosaic.Lib.ValueIdx
import Idealize.ShloMosaic.Lib.Pipeline.Value
import Idealize.ShloMosaic.PureOps.Ideal.Laws

set_option maxRecDepth 16384

noncomputable section

namespace Cert.KernelIdeal.KIdeal

open Cert.KernelIdeal Cert.KernelIdeal.Gen Cert.KernelIdeal.KValue Cert.Words Idealize.ShloMosaic Idealize.ShloMosaic.ValueIdx

/-- The float word of 1.0 denotes the real number one. -/
theorem ofBits_one : Ideal.ofBits .f32 1065353216#32 = 1 := by
  simp [Ideal.ofBits, Ideal.ieee, -EReal.coe_mul]; norm_num

/-- The entry of a 1 x 128 table row that the token in row `r`, lane `l` of the index block reads. -/
def rowAt (v0 : IVec S1024x128 32) (r : Fin 1024) (l : Fin 128) : S1x128.Idx :=
  ix2 (0 : Fin 1) ⟨(nrmW (v0 (ix2 r l))).toNat % 128, Nat.mod_lt _ (by decide)⟩

/-- The gathered block at token (r, l) is the table row at the token's entry: the index casts are the identity, the
    row is repeated down the 1024 rows, and the gather replaces the lane coordinate by the lane word mod 128. -/
theorem gathered (v0 : IVec S1024x128 32) (tv : FVec Ideal S1x128 .f32)
    (h0 : S1024x128.ShapeCasts S1024x128) (h1 : S1x128.ShapeCasts S1x128) (h2 : S1x128.Broadcasts S1024x128)
    (h3 : S1024x128.ShapeCasts S1024x128x1) (h4 : S1024x128x1.ShapeCasts S1024x128) (r : Fin 1024) (l : Fin 128) :
    dynamicGather 1 (broadcastTo S1024x128 (shapeCast S1x128 tv h1) h2)
      (shapeCast S1024x128 (shapeCast S1024x128x1
        (select (cmpi .slt (shapeCast S1024x128 v0 h0) (broadcast S1024x128 0#32))
          (addi (shapeCast S1024x128 v0 h0) (broadcast S1024x128 128#32)) (shapeCast S1024x128 v0 h0)) h3) h4) (ix2 r l)
      = tv (rowAt v0 r l) := by
  rw [shapeCast_self, shapeCast_self, shapeCast_shapeCast]
  unfold dynamicGather
  refine broadcastTo_apply _ _ _ (rowAt v0 r l) ?_
  intro a
  match a with
  | ⟨0, _⟩ => rfl
  | ⟨1, _⟩ => rfl

/-- Summing a 1024 x 128 block over its lanes and then over its rows, read at the one entry of the 1 x 1 result. -/
theorem total (G : FVec Ideal S1024x128 .f32) (hφ : FKind.Formats .f32) (hacc : (0x00000000#32 : BitVec 32) = 0x00000000#32)
    (red1 : S1024x128.Reduces [1] S1024) (sc1 : S1024.ShapeCasts S1024x1) (red0 : S1024x1.Reduces [0] S1)
    (sc2 : S1.ShapeCasts S1x1) (q : S1x1.Idx) :
    shapeCast S1x1 (multiReduction .add [0] S1 (shapeCast S1024x1 (multiReduction .add [1] S1024 G 0x00000000#32 red1 hφ hacc) sc1)
      0x00000000#32 red0 hφ hacc) sc2 q = ∑ r : Fin 1024, ∑ l : Fin 128, G (ix2 r l) := by
  refine (shapeCast_apply _ sc2 q (ix1 (0 : Fin 1)) (by
    rw [Shape.rowMajor_val_one, Shape.rowMajor_val_two]; have := (q 0).isLt; have := (q 1).isLt; simp at *; omega)).trans ?_
  refine (Ideal.multiReduction_add_single _ _ red0 hφ hacc _).trans ?_
  refine Finset.sum_congr rfl fun r _ => ?_
  refine (shapeCast_apply _ sc1 _ (ix1 r) (by
    have e0 : (red0.lift (ix1 (0 : Fin 1)) r (0 : Fin 2)).val = r.val := rfl
    have e1 : (red0.lift (ix1 (0 : Fin 1)) r (1 : Fin 2)).val = 0 := rfl
    rw [Shape.rowMajor_val_one, Shape.rowMajor_val_two, e0, e1]; simp)).trans ?_
  refine (Ideal.multiReduction_add_single _ _ red1 hφ hacc _).trans ?_
  refine Finset.sum_congr rfl fun l _ => ?_
  congr 1
  funext a; apply Fin.ext
  match a with
  | ⟨0, _⟩ => rfl
  | ⟨1, _⟩ => rfl

/-- The body's stored value at any entry of the output block, at the ideal instance: the sum over all tokens of the
    first table row's entries over the larger of the same sum for the second row and one. -/
theorem pay_apply (v0 : IVec S1024x128 32) (v2 v5 : FVec Ideal S1x128 .f32) (p : S8x128.Idx) :
    k0_pay1 (F := Ideal) v0 v2 v5 p
      = Ideal.div (∑ r : Fin 1024, ∑ l : Fin 128, v2 (rowAt v0 r l)) (max (∑ r : Fin 1024, ∑ l : Fin 128, v5 (rowAt v0 r l)) 1) := by
  unfold k0_pay1
  dsimp only
  rw [broadcastTo_apply _ _ p (ix2 (0 : Fin 1) (0 : Fin 1)) (by intro a; match a with | ⟨0, _⟩ => rfl | ⟨1, _⟩ => rfl)]
  rw [shapeCast_self]
  show FloatOps.divf (F := Ideal) _ (FloatOps.maximumf (F := Ideal) _ (FloatOps.ofBits (F := Ideal) .f32 1065353216#32)) = _
  rw [total, total, Ideal.divf_def, Ideal.maximumf_def, Ideal.ofBits_def, ofBits_one]
  simp only [gathered]

/-- Row 0 of a table block read at a token's entry is the table's word at the token's lane. -/
theorem ld_row (tb : Fin 1024 → BitVec 32) (X : Vec Ideal S8x128 .f32)
    (hX : ∀ i : S8x128.Idx, X i = Ideal.ofBits .f32 (tb (S8x128.rowMajor i))) (v : IVec S1024x128 32) (r : Fin 1024) (l : Fin 128) :
    View.ld X r0_1 (rowAt v r l) = Ideal.ofBits .f32 (tb (laneOf (v (ix2 r l)))) := by
  show X (r0_1.emb (rowAt v r l)) = _
  rw [hX]
  congr 2
  apply Fin.ext
  rw [Shape.rowMajor_val_two]
  show (0 + 1 * 0) * 128 + (0 + 1 * ((nrmW (v (ix2 r l))).toNat % 128)) = (nrmW (v (ix2 r l))).toNat % 128
  omega

/-- The token of the index array that a position of the index block holds: the one with the same row-major rank
    (the two reshapes are re-indexings). -/
def tok : S1024x128.Idx ≃ S16x8192.Idx :=
  (Shape.reshapeEquiv (s := S131072) (s' := S1024x128) shapeCasts_S131072_S1024x128).trans
    (Shape.reshapeEquiv (s := S16x8192) (s' := S131072) shapeCasts_S16x8192_S131072)

/-- The index block at a position is the clamp of the index array's word at the matching token. -/
theorem laneIdx_apply (x : IVec S16x8192 32) (j : S1024x128.Idx) : laneIdx x j = clipW (x (tok j)) := rfl

/-- THE KERNEL'S RESULT at the ideal instance: the sum over all tokens of the kernel's squared-error term of the
    clamped index, over the larger of the summed counts and one. -/
theorem kernOut_ideal (x : IVec S16x8192 32) (j : S_.Idx) :
    kernOut (F := Ideal) x j
      = Ideal.div (∑ i : S16x8192.Idx, kLossW (clipW (x i))) (max (∑ i : S16x8192.Idx, kCntW (clipW (x i))) 1) := by
  unfold kernOut shapeCast extractStridedSlice
  dsimp only
  unfold kernArr
  rw [pay_apply]
  have hsum : ∀ (tb : Fin 1024 → BitVec 32) (X : Vec Ideal S8x128 .f32)
      (hX : ∀ i : S8x128.Idx, X i = Ideal.ofBits .f32 (tb (S8x128.rowMajor i))),
      (∑ r : Fin 1024, ∑ l : Fin 128, View.ld X r0_1 (rowAt (laneIdx x) r l))
        = ∑ i : S16x8192.Idx, Ideal.ofBits .f32 (tb (laneOf (clipW (x i)))) := by
    intro tb X hX
    simp only [ld_row tb X hX]
    rw [← sum_idx2 (fun j : S1024x128.Idx => Ideal.ofBits .f32 (tb (laneOf (laneIdx x j))))]
    simp only [laneIdx_apply]
    exact Equiv.sum_comp tok (fun i => Ideal.ofBits .f32 (tb (laneOf (clipW (x i)))))
  rw [hsum Cert.KernelIdeal.lit0 lossBlk (fun _ => rfl), hsum Cert.KernelIdeal.lit1 cntBlk (fun _ => rfl)]
  rfl

end Cert.KernelIdeal.KIdeal

end
-- ==== Proof.LibIntSum.lean ====
/-
  A host integer sum over every axis, read as an integer: when every term is a non-negative word
  of size at most `B` and `numel * B` stays below `2 ^ 31`, no partial sum wraps, so the signed
  value of the `stablehlo.reduce` of `addi` from a zero initial value is the plain sum of the
  terms' signed values.
-/
import Idealize.ShloMosaic.PureOps.Reduce
import Mathlib.Algebra.BigOperators.Fin
import Mathlib.Algebra.BigOperators.Group.Finset.Basic

namespace Idealize.ShloMosaic

/-- Adding a small non-negative word to a small non-negative word does not wrap: if both signed
    values are non-negative and their integer sum is below `2 ^ 31`, the signed value of the
    32-bit sum is the integer sum. -/
theorem IntOp.toInt_add_of_small (a b : BitVec 32) (ha : 0 ≤ a.toInt) (hb : 0 ≤ b.toInt)
    (hab : a.toInt + b.toInt < 2 ^ 31) : (a + b).toInt = a.toInt + b.toInt := by
  rw [BitVec.toInt_add, Int.bmod_def]
  split <;> omega

/-- A left fold of 32-bit addition over a list of indices, from an accumulator whose signed value is
    between `0` and `n * B`, with every term's signed value between `0` and `B`: as long as
    `(n + length) * B < 2 ^ 31` no partial sum wraps, and the signed value of the result is the
    accumulator's plus the integer sum of the terms'. -/
theorem IntOp.foldl_add_toInt {ι : Type} (x : ι → BitVec 32) (B : ℕ)
    (hx : ∀ i, 0 ≤ (x i).toInt ∧ (x i).toInt ≤ (B : ℤ)) :
    ∀ (l : List ι) (a : BitVec 32) (n : ℕ), 0 ≤ a.toInt → a.toInt ≤ (n : ℤ) * B →
      (n + l.length) * B < 2 ^ 31 →
      (l.foldl (fun r i => r + x i) a).toInt = a.toInt + (l.map fun i => (x i).toInt).sum
  | [], a, n, _, _, _ => by simp
  | i :: l, a, n, ha0, han, hlen => by
    obtain ⟨hi0, hiB⟩ := hx i
    have hlen' : ((n + 1) + l.length) * B < 2 ^ 31 := by
      have : n + 1 + l.length = n + (i :: l).length := by simp; omega
      rw [this]; exact hlen
    have hnB : ((n + 1 : ℕ) : ℤ) * B < 2 ^ 31 := by
      have h1 : (n + 1) * B ≤ ((n + 1) + l.length) * B := Nat.mul_le_mul_right _ (by omega)
      have h2 : (n + 1) * B < 2 ^ 31 := lt_of_le_of_lt h1 hlen'
      exact_mod_cast h2
    have hstep : a.toInt + (x i).toInt ≤ ((n + 1 : ℕ) : ℤ) * B := by
      rw [Nat.cast_add, Nat.cast_one, add_mul, one_mul]; omega
    have hadd : (a + x i).toInt = a.toInt + (x i).toInt :=
      IntOp.toInt_add_of_small a (x i) ha0 hi0 (lt_of_le_of_lt hstep hnB)
    rw [List.foldl_cons, IntOp.foldl_add_toInt x B hx l (a + x i) (n + 1) (by omega) (by rw [hadd]; exact hstep)
      hlen', hadd, List.map_cons, List.sum_cons, add_assoc]

/-- A `stablehlo.reduce` of `addi` over every axis (the result shape has one index), from an
    initial value whose element is zero, does not wrap when every term is a non-negative word of
    signed value at most `B` and `numel * B < 2 ^ 31`: its signed value is the integer sum of the
    terms' signed values over every operand index. -/
theorem Host.reduce_addi_toInt {s t u : Shape} {axes : List (Fin s.rank)} (x : s.Idx → BitVec 32)
    (init : u.Idx → BitVec 32) (h : s.ReducesTo axes t) (hu : 0 < u.numel) (ht : ∀ b, t.size b = 1)
    (hinit : init (Shape.Idx.first hu) = 0#32) (B : ℕ)
    (hx : ∀ i, 0 ≤ (x i).toInt ∧ (x i).toInt ≤ (B : ℤ)) (hB : s.numel * B < 2 ^ 31) (j : t.Idx) :
    (Host.reduce IntOp.addi x init h hu j).toInt = ∑ i : s.Idx, (x i).toInt := by
  -- the fold runs over every operand index: the result shape has a single index
  rw [Host.reduce_eq_foldl, List.filter_eq_self.2 fun i _ => decide_eq_true (funext fun b => Fin.ext (by
    have := (h.drop i b).isLt; have := (j b).isLt; have := ht b; omega)), hinit, IntOp.addi_eq_add]
  -- no partial sum wraps
  rw [IntOp.foldl_add_toInt x B hx _ 0#32 0 (by simp) (by simp) (by simpa using hB)]
  -- the list of every index in row-major order sums like the finite type
  rw [List.map_map, ← Fin.sum_univ_def, BitVec.toInt_zero, zero_add]
  exact Fintype.sum_equiv s.rowMajor.symm _ _ fun _ => rfl

end Idealize.ShloMosaic
-- ==== Proof.RIdeal.lean ====
/-
  The reference's result at the ideal values: a quotient of two plain sums over the tokens.

  Token by token the program's vectors are the word functions of `Words`: the validity bit, the index the table
  read uses, and the two table reads (a read lands on the entry the index names, read signed and clamped into the
  table). At the ideal values the float sum over every token is the exact sum of the squared-error terms, started
  from zero. The integer sum does not wrap, since every count lies between 0 and 9 and there are 16 x 8192 tokens,
  so its signed value is the plain integer sum of the counts; the larger of it and one, converted exactly, divides.
-/
import proofs.«428653_j70497593196920_3_alg».proof.Proof.RefTerm
import proofs.«428653_j70497593196920_3_alg».proof.Proof.Words
import proofs.«428653_j70497593196920_3_alg».proof.Proof.LibIntSum
import Idealize.ShloMosaic.Lib.ValueIdx
import Idealize.ShloMosaic.Lib.Pipeline.Value
import Idealize.ShloMosaic.PureOps.Ideal.Laws

noncomputable section

namespace Cert.ReferenceIdeal.RIdeal

open Cert.ReferenceIdeal Cert.ReferenceIdeal.Gen Cert.ReferenceIdeal.RefTerm Cert.Words Idealize.ShloMosaic

/-- Every neighbour count is between 0 and 9: an invalid word counts 0, a valid one reads one of the 64 entries. -/
theorem refCnt_bounds (w : BitVec 32) : 0 ≤ (refCntW w).toInt ∧ (refCntW w).toInt ≤ 9 := by
  have h : ∀ k : Fin 64, 0 ≤ (Cert.ReferenceIdeal.lit1 k).toInt ∧ (Cert.ReferenceIdeal.lit1 k).toInt ≤ 9 := by decide
  unfold refCntW Scalar.select
  split
  · exact h _
  · decide

/-- A table index made from an entry number sits at that entry's row-major position. -/
theorem rowMajor_ix1 (k : Fin 64) : S64.rowMajor (ValueIdx.ix1 k) = k :=
  Fin.ext (Shape.rowMajor_val_one (ValueIdx.ix1 k))

/-- The index a token's table read uses, read back through the trailing unit axis, is the word function of the
    token's index word. -/
theorem readIdx_take (x : IVec S16x8192 32) (i : S16x8192.Idx) : readIdx x (ValueIdx.takeIdx i) = rdW (x i) := by
  unfold readIdx
  rw [broadcastInDim_apply _ _ _ _ i (fun a => match a with | ⟨0, _⟩ => rfl | ⟨1, _⟩ => rfl)]
  rfl

/-- The entry a token's read lands on, as the read computes it (the index read signed, clamped into the table), is
    the entry the token's index word names. -/
theorem slot_eq (x : IVec S16x8192 32) (i : S16x8192.Idx)
    (h : min (readIdx x (ValueIdx.takeIdx i)).toInt.toNat (64 - 1) < 64) :
    (⟨min (readIdx x (ValueIdx.takeIdx i)).toInt.toNat (64 - 1), h⟩ : Fin 64) = slotOf (x i) := by
  apply Fin.ext
  show min (readIdx x (ValueIdx.takeIdx i)).toInt.toNat 63 = min (rdW (x i)).toInt.toNat 63
  rw [readIdx_take]

/-- A read of a 64-entry table at a token lands on the entry the token's word names. -/
theorem gather_apply {α : Type} (t : S64.Idx → α) (x : IVec S16x8192 32) (i : S16x8192.Idx) :
    Host.gather gather_S64_S16x8192x1_S16x8192_n_0_n_n_0_2_1 t (readIdx x) i = t (ValueIdx.ix1 (slotOf (x i))) := by
  rw [← slot_eq x i (by omega)]
  exact ValueIdx.gather_take_apply (N := 64) (R := 16) (C := 8192) (by decide) gather_S64_S16x8192x1_S16x8192_n_0_n_n_0_2_1_wf t (readIdx x) i

/-- A token's squared-error term is the word function of its index word. -/
theorem lossTerms_apply (x : IVec S16x8192 32) (i : S16x8192.Idx) : lossTerms (F := Ideal) x i = refLossW (x i) := by
  show Scalar.select (validW (x i)) (Host.gather gather_S64_S16x8192x1_S16x8192_n_0_n_n_0_2_1 (lossTbl (F := Ideal)) (readIdx x) i) (Ideal.ofBits .f32 0x00000000#32) = _
  rw [gather_apply]
  unfold refLossW lossTbl
  rw [rowMajor_ix1]
  rfl

/-- A token's neighbour count is the word function of its index word. -/
theorem cntTerms_apply (x : IVec S16x8192 32) (i : S16x8192.Idx) : cntTerms x i = refCntW (x i) := by
  show Scalar.select (validW (x i)) (Host.gather gather_S64_S16x8192x1_S16x8192_n_0_n_n_0_2_1 cntTbl (readIdx x) i) 0#32 = _
  rw [gather_apply]
  unfold refCntW cntTbl
  rw [rowMajor_ix1]

/-- The signed value of the signed maximum of two words is the larger of their signed values. -/
theorem maxsi_toInt (a b : BitVec 32) : (IntOp.maxsi a b).toInt = max a.toInt b.toInt := by
  unfold IntOp.maxsi
  rw [BitVec.slt_eq_decide]
  by_cases h : b.toInt < a.toInt
  · rw [decide_eq_true h, if_pos rfl, max_eq_left h.le]
  · rw [decide_eq_false h, if_neg (by decide), max_eq_right (not_lt.mp h)]

/-- The reference's result at the ideal values: the exact sum of the squared-error terms over the larger of the
    integer sum of the counts and one. -/
theorem refOut_ideal (x : IVec S16x8192 32) (j : S_.Idx) :
    RefTerm.refOut (F := Ideal) x j
      = Ideal.div (∑ i : S16x8192.Idx, refLossW (x i))
          (((max (∑ i : S16x8192.Idx, (refCntW (x i)).toInt) 1 : ℤ) : ℝ) : EReal) := by
  have hnum : Host.reduceAdd (lossTerms (F := Ideal) x) (constant S_ .f32 0x00000000#32) reducesTo_S16x8192_S_d0_1 h_S_ j
      = ∑ i : S16x8192.Idx, refLossW (x i) := by
    show Ideal.hostReduceAdd reducesTo_S16x8192_S_d0_1 (lossTerms (F := Ideal) x) (Ideal.ofBits .f32 0x00000000#32) j = _
    rw [Ideal.hostReduceAdd_total _ (fun b => b.elim0), Ideal.ofBits_zero_f32, zero_add]
    exact Finset.sum_congr rfl fun i _ => lossTerms_apply x i
  have hcnt : (Host.reduce IntOp.addi (cntTerms x) (constantI S_ 32 0#32) reducesTo_S16x8192_S_d0_1 h_S_ j).toInt
      = ∑ i : S16x8192.Idx, (refCntW (x i)).toInt := by
    rw [show cntTerms x = fun i => refCntW (x i) from funext (cntTerms_apply x)]
    exact Host.reduce_addi_toInt _ _ _ _ (fun b => b.elim0) rfl 9 (fun i => refCnt_bounds (x i)) (by decide) j
  show Ideal.div (Host.reduceAdd (lossTerms (F := Ideal) x) (constant S_ .f32 0x00000000#32) reducesTo_S16x8192_S_d0_1 h_S_ j)
      (((IntOp.maxsi (Host.reduce IntOp.addi (cntTerms x) (constantI S_ 32 0#32) reducesTo_S16x8192_S_d0_1 h_S_ j) 1#32).toInt : ℝ) : EReal) = _
  rw [hnum, maxsi_toInt, hcnt]
  rfl

end Cert.ReferenceIdeal.RIdeal

end
-- ==== Proof.WordFacts.lean ====
/-
  One index word through both programs. For a word that is non-negative read signed, with value `n`:
  the kernel program's clamp gives `min n 127`, which is non-negative, so the body's shift of a negative
  lane word does nothing and the lane read is `min n 127`. Below 64 the reference's word is valid and
  its read lands on entry `n`, where the kernel's padded tables hold the reference's entries (the counts
  as the floats 9, 7, 8 or 0 of the integers 9, 7, 8 or 0). From 64 on the reference's term is zero and
  the kernel's lane lies in 64..127, where both padded tables hold the zero word.
-/
import proofs.«428653_j70497593196920_3_alg».proof.Proof.Words
import Idealize.ShloMosaic.PureOps.Ideal.Laws
import Idealize.ShloMosaic.Lib.Affine

noncomputable section

namespace Cert.Words

open Idealize.ShloMosaic

/-! ## Words -/

private theorem toInt_lit0 : (0#32 : BitVec 32).toInt = 0 := by decide
private theorem toInt_lit64 : (64#32 : BitVec 32).toInt = 64 := by decide
private theorem toInt_lit127 : (127#32 : BitVec 32).toInt = 127 := by decide
private theorem toNat_lit127 : (127#32 : BitVec 32).toNat = 127 := by decide

/-- A select on a condition word that is 1 is its first branch. -/
theorem select_pos {α : Type} {c : BitVec 1} (a b : α) (h : c = 1#1) : Scalar.select c a b = a := by
  unfold Scalar.select; exact if_pos h

/-- A select on a condition word that is not 1 is its second branch. -/
theorem select_neg {α : Type} {c : BitVec 1} (a b : α) (h : ¬c = 1#1) : Scalar.select c a b = b := by
  unfold Scalar.select; exact if_neg h

/-- A word that is non-negative read signed reads the same unsigned, below `2 ^ 31`. -/
theorem toInt_of_nonneg {w : BitVec 32} (hw : 0 ≤ w.toInt) : w.toNat < 2 ^ 31 ∧ w.toInt = (w.toNat : ℤ) := by
  have hlt := w.isLt
  have hc := BitVec.toInt_eq_toNat_cond w
  split at hc <;> omega

/-- The clamp of a non-negative word: 127 above 127, else the word. -/
theorem clipW_of_nonneg {w : BitVec 32} (hw : 0 ≤ w.toInt) : clipW w = if 127 < w.toInt then 127#32 else w := by
  have hmax : IntOp.maxsi 0#32 w = w := by
    simp only [IntOp.maxsi, BitVec.slt, decide_eq_true_eq, toInt_lit0]
    exact if_neg (by omega)
  rw [clipW, hmax]
  simp only [IntOp.minsi, BitVec.slt, decide_eq_true_eq, toInt_lit127]

/-- The clamped word is non-negative. -/
theorem toInt_clipW_nonneg {w : BitVec 32} (hw : 0 ≤ w.toInt) : 0 ≤ (clipW w).toInt := by
  rw [clipW_of_nonneg hw]
  split
  · rw [toInt_lit127]; omega
  · exact hw

/-- The clamped word, read unsigned, is `min n 127`. -/
theorem toNat_clipW {w : BitVec 32} (hw : 0 ≤ w.toInt) : (clipW w).toNat = min w.toNat 127 := by
  obtain ⟨-, hn⟩ := toInt_of_nonneg hw
  rw [clipW_of_nonneg hw]
  split
  · rw [toNat_lit127]; omega
  · omega

/-- The body's shift leaves a non-negative lane word alone. -/
theorem nrmW_of_nonneg {c : BitVec 32} (hc : 0 ≤ c.toInt) : nrmW c = c := by
  unfold nrmW
  exact select_neg _ _ fun h => by
    have := IntOp.cmpi_slt.1 h
    rw [toInt_lit0] at this
    omega

/-- The lane the kernel reads for a non-negative word is `min n 127`. -/
theorem laneOf_clipW_val {w : BitVec 32} (hw : 0 ≤ w.toInt) : (laneOf (clipW w)).val = min w.toNat 127 := by
  show (nrmW (clipW w)).toNat % 128 = _
  rw [nrmW_of_nonneg (toInt_clipW_nonneg hw), toNat_clipW hw]
  omega

/-- The reference's validity bit is set exactly below 64, signed. -/
theorem validW_iff {w : BitVec 32} : validW w = 1#1 ↔ w.toInt < 64 := by
  unfold validW
  rw [IntOp.cmpi_slt, toInt_lit64]

/-- For a non-negative word below 64 the reference reads at the word itself. -/
theorem rdW_of_lt {w : BitVec 32} (hw : 0 ≤ w.toInt) (h : w.toInt < 64) : rdW w = w := by
  unfold rdW
  rw [select_pos _ _ (validW_iff.2 h)]
  exact select_neg _ _ fun hc => by
    have := IntOp.cmpi_slt.1 hc
    rw [toInt_lit0] at this
    omega

/-- For a non-negative word below 64 the reference's read lands on entry `n`. -/
theorem slotOf_val_of_lt {w : BitVec 32} (hw : 0 ≤ w.toInt) (h : w.toInt < 64) : (slotOf w).val = w.toNat := by
  obtain ⟨-, hn⟩ := toInt_of_nonneg hw
  show min (rdW w).toInt.toNat 63 = w.toNat
  rw [rdW_of_lt hw h]
  omega

/-! ## Tables -/

/-- On lanes 0..63 the kernel's padded squared-error table holds the reference's entries. -/
theorem klit0_low : ∀ n (h : n < 64),
    Cert.KernelIdeal.lit0 ⟨n, Nat.lt_of_lt_of_le h (by decide)⟩ = Cert.ReferenceIdeal.lit0 ⟨n, h⟩ := by
  decide

/-- On lanes 64..127 the kernel's padded squared-error table holds the zero word. -/
theorem klit0_high : ∀ n (h : n < 128), 64 ≤ n →
    Cert.KernelIdeal.lit0 ⟨n, Nat.lt_of_lt_of_le h (by decide)⟩ = 0x00000000#32 := by
  decide

/-- On lanes 64..127 the kernel's padded count table holds the zero word. -/
theorem klit1_high : ∀ n (h : n < 128), 64 ≤ n →
    Cert.KernelIdeal.lit1 ⟨n, Nat.lt_of_lt_of_le h (by decide)⟩ = 0x00000000#32 := by
  decide

/-- On lanes 0..63 the kernel's padded count table holds the float pattern of the reference's integer count,
    which is 9, 7, 8 or 0. -/
theorem cnt_low : ∀ n (h : n < 64),
    (Cert.KernelIdeal.lit1 ⟨n, Nat.lt_of_lt_of_le h (by decide)⟩ = 0x41100000#32 ∧ Cert.ReferenceIdeal.lit1 ⟨n, h⟩ = 9#32) ∨
    (Cert.KernelIdeal.lit1 ⟨n, Nat.lt_of_lt_of_le h (by decide)⟩ = 0x40E00000#32 ∧ Cert.ReferenceIdeal.lit1 ⟨n, h⟩ = 7#32) ∨
    (Cert.KernelIdeal.lit1 ⟨n, Nat.lt_of_lt_of_le h (by decide)⟩ = 0x41000000#32 ∧ Cert.ReferenceIdeal.lit1 ⟨n, h⟩ = 8#32) ∨
    (Cert.KernelIdeal.lit1 ⟨n, Nat.lt_of_lt_of_le h (by decide)⟩ = 0x00000000#32 ∧ Cert.ReferenceIdeal.lit1 ⟨n, h⟩ = 0#32) := by
  decide

/-! ## The float constants of the count table, at the ideal values -/

/-- `9.0` denotes the real 9. -/
theorem ofBits_nine : Ideal.ofBits .f32 0x41100000#32 = ((9 : ℝ) : EReal) := by
  simp [Ideal.ofBits, Ideal.ieee, -EReal.coe_mul]; norm_num

/-- `7.0` denotes the real 7. -/
theorem ofBits_seven : Ideal.ofBits .f32 0x40E00000#32 = ((7 : ℝ) : EReal) := by
  simp [Ideal.ofBits, Ideal.ieee, -EReal.coe_mul]; norm_num

/-- `8.0` denotes the real 8. -/
theorem ofBits_eight : Ideal.ofBits .f32 0x41000000#32 = ((8 : ℝ) : EReal) := by
  simp [Ideal.ofBits, Ideal.ieee, -EReal.coe_mul]; norm_num

private theorem toInt_lit9 : (9#32 : BitVec 32).toInt = 9 := by decide
private theorem toInt_lit7 : (7#32 : BitVec 32).toInt = 7 := by decide
private theorem toInt_lit8 : (8#32 : BitVec 32).toInt = 8 := by decide

/-! ## The two reads -/

/-- The kernel's squared-error read of the clamped word is the reference's term of the word. -/
theorem word_loss (w : BitVec 32) (hw : 0 ≤ w.toInt) : kLossW (clipW w) = refLossW w := by
  obtain ⟨-, hn⟩ := toInt_of_nonneg hw
  by_cases h : w.toInt < 64
  · have hlt : w.toNat < 64 := by omega
    have hlane : laneOf (clipW w) = ⟨w.toNat, Nat.lt_of_lt_of_le hlt (by decide)⟩ :=
      Fin.ext (by rw [laneOf_clipW_val hw]; show min w.toNat 127 = w.toNat; omega)
    have hslot : slotOf w = ⟨w.toNat, hlt⟩ := Fin.ext (slotOf_val_of_lt hw h)
    unfold kLossW refLossW
    rw [hlane, hslot, select_pos _ _ (validW_iff.2 h)]
    exact congrArg (Ideal.ofBits .f32) (klit0_low w.toNat hlt)
  · have hk : 64 ≤ min w.toNat 127 := by omega
    have hk' : min w.toNat 127 < 128 := by omega
    have hlane : laneOf (clipW w) = ⟨min w.toNat 127, Nat.lt_of_lt_of_le hk' (by decide)⟩ :=
      Fin.ext (laneOf_clipW_val hw)
    unfold kLossW refLossW
    rw [hlane, select_neg _ _ fun hv => h (validW_iff.1 hv)]
    exact congrArg (Ideal.ofBits .f32) (klit0_high _ hk' hk)

/-- The kernel's count read of the clamped word is the reference's integer count of the word, as a real. -/
theorem word_cnt (w : BitVec 32) (hw : 0 ≤ w.toInt) : kCntW (clipW w) = (((refCntW w).toInt : ℝ) : EReal) := by
  obtain ⟨-, hn⟩ := toInt_of_nonneg hw
  by_cases h : w.toInt < 64
  · have hlt : w.toNat < 64 := by omega
    have hlane : laneOf (clipW w) = ⟨w.toNat, Nat.lt_of_lt_of_le hlt (by decide)⟩ :=
      Fin.ext (by rw [laneOf_clipW_val hw]; show min w.toNat 127 = w.toNat; omega)
    have hslot : slotOf w = ⟨w.toNat, hlt⟩ := Fin.ext (slotOf_val_of_lt hw h)
    unfold kCntW refCntW
    rw [hlane, hslot, select_pos _ _ (validW_iff.2 h)]
    rcases cnt_low w.toNat hlt with ⟨hk, hr⟩ | ⟨hk, hr⟩ | ⟨hk, hr⟩ | ⟨hk, hr⟩
    · rw [hk, hr, ofBits_nine, toInt_lit9]; norm_num
    · rw [hk, hr, ofBits_seven, toInt_lit7]; norm_num
    · rw [hk, hr, ofBits_eight, toInt_lit8]; norm_num
    · rw [hk, hr, Ideal.ofBits_zero_f32, toInt_lit0]; simp
  · have hk : 64 ≤ min w.toNat 127 := by omega
    have hk' : min w.toNat 127 < 128 := by omega
    have hlane : laneOf (clipW w) = ⟨min w.toNat 127, Nat.lt_of_lt_of_le hk' (by decide)⟩ :=
      Fin.ext (laneOf_clipW_val hw)
    unfold kCntW refCntW
    rw [hlane, select_neg _ _ fun hv => h (validW_iff.1 hv), klit1_high _ hk' hk, Ideal.ofBits_zero_f32,
      toInt_lit0]
    simp

end Cert.Words

end
-- ==== Proof.Bridge.lean ====
/-
  The two results are one number when no index is negative.

  Both are quotients. The numerators are sums over the tokens of a per-token term, and for a non-negative index word
  the kernel's term (its table at the word clamped into the 128 lanes) is the reference's (its table at the word
  when the word is below 64, zero otherwise). The denominators are the larger of a count total and one: the kernel
  adds its float counts, which are the reference's integer counts as real numbers, and a finite sum of reals, and
  the larger of two reals, are the same whether taken before or after passing to the extended reals, or to the
  reals from the integers.
-/
import proofs.«428653_j70497593196920_3_alg».proof.Proof.KIdeal
import proofs.«428653_j70497593196920_3_alg».proof.Proof.RIdeal
import proofs.«428653_j70497593196920_3_alg».proof.Proof.WordFacts

noncomputable section

namespace Cert.Bridge

open Cert.Words Idealize.ShloMosaic

/-- A finite sum of real numbers, passed to the extended reals, is the sum of the passed terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For an index array with no negative word, the kernel's result and the reference's are equal, as extended reals. -/
theorem result_eq (x : IVec Cert.KernelIdeal.S16x8192 32) (hx : ∀ i, 0 ≤ (x i).toInt) (j : Cert.KernelIdeal.S_.Idx) :
    Cert.KernelIdeal.KValue.kernOut (F := Ideal) x j = Cert.ReferenceIdeal.RefTerm.refOut (F := Ideal) x j := by
  rw [Cert.KernelIdeal.KIdeal.kernOut_ideal, Cert.ReferenceIdeal.RIdeal.refOut_ideal]
  have hnum : (∑ i : Cert.KernelIdeal.S16x8192.Idx, kLossW (clipW (x i))) = ∑ i : Cert.KernelIdeal.S16x8192.Idx, refLossW (x i) :=
    Finset.sum_congr rfl fun i _ => word_loss (x i) (hx i)
  have hden : max (∑ i : Cert.KernelIdeal.S16x8192.Idx, kCntW (clipW (x i))) 1
      = (((max (∑ i : Cert.KernelIdeal.S16x8192.Idx, (refCntW (x i)).toInt) 1 : ℤ) : ℝ) : EReal) := by
    rw [Finset.sum_congr rfl fun i _ => word_cnt (x i) (hx i), ← coe_sum, Int.cast_max, Int.cast_sum, Int.cast_one,
      EReal.coe_strictMono.monotone.map_max, EReal.coe_one]
  rw [hnum, hden]

end Cert.Bridge

end
-- ==== Proof.lean ====
/-
  The certificate of a codon-table loss: for a 16 x 8192 array of codon indices the program returns the sum, over the
  tokens with index below 64, of a per-codon squared-error table entry, divided by the larger of the sum of a
  per-codon neighbour-count table entry and one. (The embedding argument is not read.)

  The kernel's program clamps each index into [0, 127] and reads two tables padded with zeros to 128 lanes, so an
  index of 64 or more contributes zero, as in the reference. A NEGATIVE index is another matter: the kernel's clamp
  sends it to entry 0, while the reference reads the table from its end. The claim is therefore stated for index
  arrays with no negative entry, which the precondition says; under it the two results are one quotient of sums
  (Proof/Bridge.lean), the kernel's read off its frame run (Proof/KValue.lean, Proof/KIdeal.lean) and the
  reference's off its straight-line run (Proof/RefRun.lean, Proof/RIdeal.lean).
-/
import proofs.«428653_j70497593196920_3_alg».proof.Defs
import proofs.«428653_j70497593196920_3_alg».proof.Proof.Gen.Kernel
import proofs.«428653_j70497593196920_3_alg».proof.Proof.Gen.Kernel.Skeleton
import proofs.«428653_j70497593196920_3_alg».proof.Proof.Gen.Kernel.Launch
import proofs.«428653_j70497593196920_3_alg».proof.Proof.Gen.Kernel.Points
import proofs.«428653_j70497593196920_3_alg».proof.Proof.Gen.Kernel.Frame
import proofs.«428653_j70497593196920_3_alg».proof.Proof.Gen.KernelIdeal
import proofs.«428653_j70497593196920_3_alg».proof.Proof.Gen.KernelIdeal.Skeleton
import proofs.«428653_j70497593196920_3_alg».proof.Proof.Gen.KernelIdeal.Launch
import proofs.«428653_j70497593196920_3_alg».proof.Proof.Gen.KernelIdeal.Points
import proofs.«428653_j70497593196920_3_alg».proof.Proof.Gen.KernelIdeal.Frame
import proofs.«428653_j70497593196920_3_alg».proof.Proof.Gen.ReferenceIdeal
import proofs.«428653_j70497593196920_3_alg».proof.Proof.Gen.Pre_finite_inputs
import proofs.«428653_j70497593196920_3_alg».proof.Proof.KValue
import proofs.«428653_j70497593196920_3_alg».proof.Proof.RefRun
import proofs.«428653_j70497593196920_3_alg».proof.Proof.PreFacts
import proofs.«428653_j70497593196920_3_alg».proof.Proof.Bridge
import Idealize.ShloMosaic.Adequacy
import Idealize.ShloMosaic.Init

noncomputable section

namespace Cert.Proof

open Idealize.ShloMosaic Idealize.SL.Sem

/-- The kernel's program runs and leaves its arguments alone: the frame of its one region. -/
theorem frame_k : Cert.frame_Kernel := fun m ρ _ => Cert.Kernel.Gen.frame m ρ

/-- The same read over the extended reals. -/
theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories that agree on the arguments, with no negative index, both programs end at the same extended real:
    the kernel's at its quotient of sums of the index array, the reference's at its own, which is the same number. -/
theorem algebraic : Cert.algebraic_KernelIdeal_ReferenceIdeal := by
  intro m ρ m' ρ' hpre hagree
  refine ⟨fun c => Cert.KernelIdeal.KValue.kernOut (F := Ideal)
    (m ((c.tc : Thread Cert.KernelIdeal.nD Cert.KernelIdeal.τ).loc Cert.KernelIdeal.main_arg1)),
    Cert.KernelIdeal.KValue.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).2]
  funext j
  exact (Cert.Bridge.result_eq _ (Cert.Pre_finite_inputs.PreFacts.nonneg_of_pre _ _ (hpre c)) j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
